-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S128x128 .f32) (main_arg2 : FVec F S128 .f32) (main_arg3 : IVec S800000 32) (main_arg4 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 34
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S1x128, .f32⟩
  | .hbm, ⟨32, _⟩ => ⟨S128x128, .bf16⟩
  | .hbm, ⟨33, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelHost.lean ====
/-
  What the kernel's four staged arrays hold when the region is entered, as terms of the program's arguments.

  Before the region the program gathers one row of `hidden` per edge (at the edge's source, a negative index
  wrapped once by the node count) and scatter-adds the rows into a zero array at the edge's destination
  (`summed`); it scatter-adds a one per edge into a zero vector at the destination (`degree`: the number of
  incoming edges), clamps that below by one and takes the reciprocal, viewed as a column; it views the bias as
  a row; and it changes the weights' format.  Read at an index: the reciprocal column at `(r, 0)` is
  `1 / max (degree r) 1`, the bias row at `(0, j)` is `b j`, the weights at `(k, j)` are `W (k, j)` (a
  change of format is the identity on the extended reals).
-/
import proofs.«430197_j41394894798937_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.Hand

open Cert.KernelIdeal Cert.KernelIdeal.Gen Idealize.ShloMosaic Idealize.ShloMosaic.TcCoe Idealize.SL.Sem
open Idealize.ShloMosaic.ValueIdx

variable {F : FTy → Type} [FloatOps F]

/-- The rows of `hidden` at the edges' sources, added up per destination node. -/
def summed (x0 : (⟨S50000x128, .f32⟩ : BufTy).Contents (Elt F)) (x3 x4 : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 x4)
    (Host.gather gather_S50000x128_S800000x1_S800000x128_1_0_n_n_0_1_1128 x0
      (broadcastInDim S800000x1 ![0] bcast_S800000_S800000x1_0
        (select (cmpi .slt x3 (broadcastInDim S800000 ![] bcast_S_S800000 (constantI S_ 32 0#32)))
          (addi x3 (broadcastInDim S800000 ![] bcast_S_S800000 (constantI S_ 32 50000#32))) x3)))

/-- One per edge, added up per destination node: the number of incoming edges. -/
def degree (x4 : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant (F := F) S_ .f32 0x00000000#32))
    (broadcastInDim S800000x1 ![0] bcast_S800000_S800000x1_0 x4)
    (broadcastInDim S800000 ![] bcast_S_S800000 (constant (F := F) S_ .f32 0x3F800000#32))

/-- The vector of ones over the nodes. -/
def ones : (⟨S50000, .f32⟩ : BufTy).Contents (Elt F) :=
  broadcastInDim S50000 ![] bcast_S_S50000 (constant (F := F) S_ .f32 0x3F800000#32)

/-- One over a count vector clamped below by one, entry by entry. -/
def recipOf (d : (⟨S50000, .f32⟩ : BufTy).Contents (Elt F)) : (⟨S50000, .f32⟩ : BufTy).Contents (Elt F) :=
  Host.divf (ones (F := F)) (maximumf d (ones (F := F)))

/-- The reciprocal of the clamped number of incoming edges, as a vector over the nodes. -/
def recip (x4 : (⟨S800000, .i32⟩ : BufTy).Contents (Elt F)) : (⟨S50000, .f32⟩ : BufTy).Contents (Elt F) :=
  recipOf (degree x4)

variable (m : (ℓ : Loc nD τ sig) → Buf (Elt F) ℓ)

/-- The first window's array is `summed` of the arguments. -/
theorem V_summed (c : Dev nD) : V m c main_v9
    = summed (m ((c : Thread nD τ).loc main_arg0)) (m ((c : Thread nD τ).loc main_arg3)) (m ((c : Thread nD τ).loc main_arg4)) := by
  dsimp only [V, hostOps0]; after_results <;> rfl

/-- The second window's array is the reciprocal vector viewed as a column. -/
theorem V_recip (c : Dev nD) : V m c main_v18
    = shapeCast S50000x1 (recip (m ((c : Thread nD τ).loc main_arg4))) shapeCasts_S50000_S50000x1 := by
  dsimp only [V, hostOps0]; after_results <;> rfl

/-- The third window's array is the weights in the narrower format. -/
theorem V_weights (c : Dev nD) : V m c main_v20 = truncf .bf16 (m ((c : Thread nD τ).loc main_arg1)) bitsLt_bf16_f32 := by
  dsimp only [V, hostOps0]; after_results <;> rfl

/-- The fourth window's array is the bias viewed as a row. -/
theorem V_bias (c : Dev nD) : V m c main_v19 = shapeCast S1x128 (m ((c : Thread nD τ).loc main_arg2)) shapeCasts_S128_S1x128 := by
  dsimp only [V, hostOps0]; after_results <;> rfl

end Cert.KernelIdeal.Hand

/-! ## The same arrays read at an index, on the extended reals -/

namespace Cert.KernelIdeal.Hand

open Cert.KernelIdeal Cert.KernelIdeal.Gen Idealize.ShloMosaic Idealize.ShloMosaic.TcCoe Idealize.SL.Sem
open Idealize.ShloMosaic.ValueIdx

/-- The vector of ones reads one everywhere. -/
theorem ones_apply (i : S50000.Idx) : (ones (F := Ideal) : FVec Ideal S50000 .f32) i = 1 := by
  unfold ones
  rw [broadcastInDim_apply _ bcast_S_S50000 _ i ix0 (fun a => a.elim0), constant_apply, Ideal.ofBits_one_f32]

/-- One over a clamped count vector at node `r`. -/
theorem recipOf_apply (d : FVec Ideal S50000 .f32) (r : Fin 50000) :
    (recipOf (F := Ideal) d : FVec Ideal S50000 .f32) (ix1 r) = Ideal.div 1 (max (d (ix1 r)) 1) := by
  show Ideal.div ((ones (F := Ideal) : FVec Ideal S50000 .f32) (ix1 r)) (max (d (ix1 r)) ((ones (F := Ideal) : FVec Ideal S50000 .f32) (ix1 r))) = _
  rw [ones_apply]

/-- The same vector viewed as a column, at `(r, 0)`. -/
theorem recipOf_col_apply (d : FVec Ideal S50000 .f32) (r : Fin 50000) :
    (shapeCast S50000x1 (recipOf (F := Ideal) d) shapeCasts_S50000_S50000x1 : FVec Ideal S50000x1 .f32) (ix2 r 0)
      = Ideal.div 1 (max (d (ix1 r)) 1) := by
  rw [shapeCast_apply _ shapeCasts_S50000_S50000x1 (ix2 r 0) (ix1 r) (by
    rw [Shape.rowMajor_val_one, Shape.rowMajor_val_two]; show r.val = r.val * 1 + 0; omega)]
  exact recipOf_apply d r

/-- The bias row at `(0, j)`. -/
theorem bias_row_apply (x2 : (⟨S128, .f32⟩ : BufTy).Contents (Elt Ideal)) (j : Fin 128) :
    (shapeCast S1x128 x2 shapeCasts_S128_S1x128 : FVec Ideal S1x128 .f32) (ix2 0 j) = (x2 : FVec Ideal S128 .f32) (ix1 j) :=
  shapeCast_apply _ shapeCasts_S128_S1x128 (ix2 0 j) (ix1 j) (by
    rw [Shape.rowMajor_val_one, Shape.rowMajor_val_two]; show j.val = 0 * 128 + j.val; omega)

end Cert.KernelIdeal.Hand

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KernelPayload.lean ====
/-
  The kernel body's one store, read at an index on the extended reals.

  At a grid point the body loads a block of 5000 summed rows, the matching 5000 reciprocals as a column, the
  whole weight matrix and the bias row.  It multiplies every row by its reciprocal (the column broadcast along
  the 128 lanes), multiplies the 5000 × 128 result by the 128 × 128 weights into a zero accumulator, adds the
  bias row (broadcast along the rows) and clamps below by zero.  The changes of format are the identity here, so
  at `(p, q)` the stored value is
  `max (∑ k, (x (p, k) * recip (p, 0)) * W (k, q) + b (0, q)) 0`.
-/
import proofs.«430197_j41394894798937_3_alg».proof.Proof.Gen.KernelIdeal.Skeleton
import proofs.«430197_j41394894798937_3_alg».proof.Proof.LibPlainDot
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- A column of 5000 entries broadcast along 128 lanes reads, at `(p, q)`, the column's entry `p`. -/
theorem col_bcast_apply (x : FVec Ideal S5000x1 .f32) (h : S5000x1.Broadcasts S5000x128) (p : Fin 5000) (q : Fin 128) :
    broadcastTo S5000x128 x h (ix2 p q) = x (ix2 p 0) :=
  broadcastTo_apply x h (ix2 p q) (ix2 p 0) fun a => by
    match a with
    | ⟨0, _⟩ => show p.val = if (5000 : Nat) = 1 then 0 else p.val; rw [if_neg (by decide)]
    | ⟨1, _⟩ => show 0 = if (1 : Nat) = 1 then 0 else q.val; rw [if_pos rfl]

/-- A row of 128 entries broadcast along 5000 rows reads, at `(p, q)`, the row's entry `q`. -/
theorem row_bcast_apply (x : FVec Ideal S1x128 .f32) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => show 0 = if (1 : Nat) = 1 then 0 else p.val; rw [if_pos rfl]
    | ⟨1, _⟩ => show q.val = if (128 : Nat) = 1 then 0 else q.val; rw [if_neg (by decide)]

/-- The stored value at `(p, q)`. -/
theorem pay_apply (x0 : FVec Ideal S5000x128 .f32) (x1 : FVec Ideal S5000x1 .f32) (x2 : FVec Ideal S128x128 .bf16)
    (x3 : FVec Ideal S1x128 .f32) (p : Fin 5000) (q : Fin 128) :
    k0_pay1 (F := Ideal) x0 x1 x2 x3 (ix2 p q)
      = max ((∑ k : Fin 128, (x0 (ix2 p k) * x1 (ix2 p 0)) * x2 (ix2 k q)) + x3 (ix2 0 q)) 0 := by
  unfold k0_pay1
  simp only [shapeCast_self]
  rw [maximumf_apply, addf_apply, broadcast_apply, row_bcast_apply,
    Cert.LibPlainDot.matmul_zero_apply dot_S5000x128_S128x128_S5000x128_1_0_0_1_n_n rfl]
  have hz : (Scalar.ofBits (F := Ideal) .f32 0x00000000#32 : Ideal .f32) = 0 := Ideal.ofBits_zero_f32
  rw [hz]
  congr 2
  refine Finset.sum_congr rfl fun k _ => ?_
  rw [truncf_apply, mulf_apply, col_bcast_apply]

end Cert.KernelIdeal.Hand

end
-- ==== Proof.MeanSpec.lean ====
/-
  Mean aggregation followed by a dense layer, as one function of the arrays.

  For every node `r` the rows of its incoming edges are summed (`summed (r, k)`) and the edges are counted
  (`deg r`); the count is clamped below by one, so a node with no incoming edge divides by one.  The node's mean
  row is `summed (r, k) / max (deg r) 1`, and the layer's output at `(r, j)` is
  `max (∑ k, mean (r, k) * W (k, j) + b j) 0`.

  One program divides each entry by the clamped count, the other multiplies it by the reciprocal of the clamped
  count.  On the extended reals `x / y` is `x * y⁻¹` whenever `y ≠ 0`, and a clamped count is at least one,
  hence not zero: the two agree entry by entry, at infinite entries too, and no finiteness of the inputs is used
  (`mul_recip_clamped`).
-/
import Idealize.ShloMosaic.PureOps.Ideal
import Idealize.ShloMosaic.Lib.ValueIdx
import Idealize.ShloMosaic.Lib.IdealHost

noncomputable section

namespace Cert.MeanLinear

open Idealize.ShloMosaic Idealize.ShloMosaic.ValueIdx

/-- A count clamped below by one is not zero. -/
theorem clamped_ne_zero (d : EReal) : max d 1 ≠ 0 :=
  ne_of_gt (lt_of_lt_of_le zero_lt_one (le_max_right d 1))

/-- Multiplying by the reciprocal of a clamped count is dividing by the clamped count, for every extended real
    `x` and every count `d`: both sides are `x * (max d 1)⁻¹`. -/
theorem mul_recip_clamped (x d : EReal) : x * Ideal.div 1 (max d 1) = Ideal.div x (max d 1) := by
  rw [Ideal.div, Ideal.div, if_neg (clamped_ne_zero d), if_neg (clamped_ne_zero d), one_mul]

/-- One term of the kernel's row-by-column product against the reference's: an entry `a = s` times the
    reciprocal `r = 1 / max d 1` times a weight `w = W` is `s / max d 1` times `W`. -/
theorem term_eq {a r w s d W : EReal} (h0 : a = s) (h1 : r = Ideal.div 1 (max d 1)) (h2 : w = W) :
    a * r * w = Ideal.div s (max d 1) * W := by
  subst h0 h1 h2
  rw [mul_recip_clamped]

/-- The layer's output from the summed rows, the edge counts, the weights and the bias: at `(r, j)` the bias
    added to the product of node `r`'s mean row with column `j` of the weights, clamped below by zero. -/
def layer (summed : (⟨2, ![50000, 128]⟩ : Shape).Idx → EReal) (deg : (⟨1, ![50000]⟩ : Shape).Idx → EReal)
    (W : (⟨2, ![128, 128]⟩ : Shape).Idx → EReal) (b : (⟨1, ![128]⟩ : Shape).Idx → EReal) :
    (⟨2, ![50000, 128]⟩ : Shape).Idx → EReal :=
  fun i => max ((∑ k : Fin 128, Ideal.div (summed (ix2 (i 0) k)) (max (deg (ix1 (i 0))) 1) * W (ix2 k (i 1)))
    + b (ix1 (i 1))) 0

/-- The same at explicit coordinates. -/
theorem layer_apply (summed : (⟨2, ![50000, 128]⟩ : Shape).Idx → EReal) (deg : (⟨1, ![50000]⟩ : Shape).Idx → EReal)
    (W : (⟨2, ![128, 128]⟩ : Shape).Idx → EReal) (b : (⟨1, ![128]⟩ : Shape).Idx → EReal) (r : Fin 50000) (j : Fin 128) :
    layer summed deg W b (ix2 r j)
      = max ((∑ k : Fin 128, Ideal.div (summed (ix2 r k)) (max (deg (ix1 r)) 1) * W (ix2 k j)) + b (ix1 j)) 0 := rfl

end Cert.MeanLinear

end
-- ==== Proof.KernelValue.lean ====
/-
  The kernel's result array after the run is the layer of the specification.

  The grid has ten points; point `t` works on rows `5000 t … 5000 t + 4999`: its blocks of the summed rows, of
  the reciprocal column and of the result are block `t` along the rows, and the weights and the bias row are
  fetched whole.  So what point `t` writes at `(p, q)` of its block is, with `r = 5000 t + p`,
  `max (∑ k, (summed (r, k) * (1 / max (deg r) 1)) * W (k, q) + b q) 0`, which is the layer at `(r, q)`:
  multiplying by the reciprocal of the clamped count is dividing by it.  Every row lies in exactly the block of
  the point `r / 5000`, so the ten blocks cover the result array and it ends holding the layer.
-/
import proofs.«430197_j41394894798937_3_alg».proof.Proof.Gen.KernelIdeal.Value
import proofs.«430197_j41394894798937_3_alg».proof.Proof.KernelHost
import proofs.«430197_j41394894798937_3_alg».proof.Proof.KernelPayload
import proofs.«430197_j41394894798937_3_alg».proof.Proof.MeanSpec
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the three row-blocked windows are at block `t` along
    the rows, everything else at block zero. -/
theorem idx_facts : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row `p` of point `t`'s block is row `5000 t + p` of the array. -/
def row (t : Fin cfg0.N) (p : Fin 5000) : Fin 50000 :=
  ⟨t.val * 5000 + p.val, by have h := t.isLt; have hN : cfg0.N = 10 := N_0; have := p.isLt; omega⟩

/-- The result of the specification over the kernel's own summed rows and counts. -/
def result (c : Dev nD) : Buf (Elt Ideal) ((c : Thread nD τ).loc main_v21) :=
  Cert.MeanLinear.layer
    (summed (m ((c : Thread nD τ).loc main_arg0)) (m ((c : Thread nD τ).loc main_arg3)) (m ((c : Thread nD τ).loc main_arg4)))
    (degree (m ((c : Thread nD τ).loc main_arg4)))
    (m ((c : Thread nD τ).loc main_arg1)) (m ((c : Thread nD τ).loc main_arg2))

/-! ### Each input block as entries of its array

Each window's block at point `t` is its array read through the block's rectangle.  The reads are stated for an
arbitrary array first: only the rectangle matters. -/

/-- Point `t`'s block of an array of 50000 rows, at `(p, k)`, is the array at `(5000 t + p, k)`. -/
theorem read_blk0 (t : Fin cfg0.N) (A : FVec Ideal S50000x128 .f32) (p : Fin 5000) (k : Fin 128) :
    (((cfg0.win 0).blk t).view.read (Elt Ideal) A : FVec Ideal S5000x128 .f32) (ix2 p k) = A (ix2 (row t p) k) := by
  obtain ⟨-, -, e0, e1, -⟩ := idx_facts t
  rw [View.read_apply]
  refine congrArg A (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- Point `t`'s block of a column of 50000 entries, at `(p, 0)`, is the column at `(5000 t + p, 0)`. -/
theorem read_blk1 (t : Fin cfg0.N) (A : FVec Ideal S50000x1 .f32) (p : Fin 5000) :
    (((cfg0.win 1).blk t).view.read (Elt Ideal) A : FVec Ideal S5000x1 .f32) (ix2 p 0) = A (ix2 (row t p) 0) := by
  obtain ⟨-, -, -, -, e0, e1, -⟩ := idx_facts t
  rw [View.read_apply]
  refine congrArg A (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

/-- The weights are fetched whole at every point. -/
theorem read_blk2 (t : Fin cfg0.N) (A : FVec Ideal S128x128 .bf16) (k q : Fin 128) :
    (((cfg0.win 2).blk t).view.read (Elt Ideal) A : FVec Ideal S128x128 .bf16) (ix2 k q) = A (ix2 k q) := by
  obtain ⟨-, -, -, -, -, -, e0, e1, -⟩ := idx_facts t
  rw [View.read_apply]
  refine congrArg A (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias row is fetched whole at every point. -/
theorem read_blk3 (t : Fin cfg0.N) (A : FVec Ideal S1x128 .f32) (q : Fin 128) :
    (((cfg0.win 3).blk t).view.read (Elt Ideal) A : FVec Ideal S1x128 .f32) (ix2 0 q) = A (ix2 0 q) := by
  obtain ⟨-, -, -, -, -, -, -, -, e0, e1⟩ := idx_facts t
  rw [View.read_apply]
  refine congrArg A (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The first window's block at `(p, k)`: the summed rows at `(5000 t + p, k)`. -/
theorem iblk0_apply (c : Dev nD) (t : Fin cfg0.N) (p : Fin 5000) (k : Fin 128) :
    (iblk m c 0 t : FVec Ideal S5000x128 .f32) (ix2 p k)
      = (summed (m ((c : Thread nD τ).loc main_arg0)) (m ((c : Thread nD τ).loc main_arg3)) (m ((c : Thread nD τ).loc main_arg4)) : FVec Ideal S50000x128 .f32) (ix2 (row t p) k) := by
  unfold iblk
  exact (read_blk0 t (V m c (Pipeline.arrRef spec0 0)) p k).trans (congrFun (V_summed m c) (ix2 (row t p) k))

/-- The second window's block at `(p, 0)`: one over the clamped count of node `5000 t + p`. -/
theorem iblk1_apply (c : Dev nD) (t : Fin cfg0.N) (p : Fin 5000) :
    (iblk m c 1 t : FVec Ideal S5000x1 .f32) (ix2 p 0)
      = Ideal.div 1 (max ((degree (m ((c : Thread nD τ).loc main_arg4)) : FVec Ideal S50000 .f32) (ix1 (row t p))) 1) := by
  unfold iblk
  exact (read_blk1 t (V m c (Pipeline.arrRef spec0 1)) p).trans
    ((congrFun (V_recip m c) (ix2 (row t p) 0)).trans (recipOf_col_apply _ (row t p)))

/-- The third window's block at `(k, q)`: the weights there. -/
theorem iblk2_apply (c : Dev nD) (t : Fin cfg0.N) (k q : Fin 128) :
    (iblk m c 2 t : FVec Ideal S128x128 .bf16) (ix2 k q) = (m ((c : Thread nD τ).loc main_arg1) : FVec Ideal S128x128 .f32) (ix2 k q) := by
  unfold iblk
  exact (read_blk2 t (V m c (Pipeline.arrRef spec0 2)) k q).trans (congrFun (V_weights m c) (ix2 k q))

/-- The fourth window's block at `(0, q)`: the bias at `q`. -/
theorem iblk3_apply (c : Dev nD) (t : Fin cfg0.N) (q : Fin 128) :
    (iblk m c 3 t : FVec Ideal S1x128 .f32) (ix2 0 q) = (m ((c : Thread nD τ).loc main_arg2) : FVec Ideal S128 .f32) (ix1 q) := by
  unfold iblk
  exact (read_blk3 t (V m c (Pipeline.arrRef spec0 3)) q).trans
    ((congrFun (V_bias m c) (ix2 0 q)).trans (bias_row_apply _ q))

/-- Entry `(p, q)` of point `t`'s result block is entry `(5000 t + p, q)` of the result array. -/
theorem emb_out (t : Fin cfg0.N) (p : Fin 5000) (q : Fin 128) :
    ((cfg0.win 4).blk t).view.emb (ix2 p q : S5000x128.Idx) = (ix2 (row t p) q : S50000x128.Idx) := by
  obtain ⟨e0, e1, -⟩ := idx_facts t
  funext a; apply Fin.ext
  match a with
  | ⟨0, _⟩ => show win0_4.index t (0 : Fin 2) * 5000 + 1 * p.val = t.val * 5000 + p.val; rw [e0]; omega
  | ⟨1, _⟩ => show win0_4.index t (1 : Fin 2) * 128 + 1 * q.val = q.val; rw [e1]; omega

/-! ### What a point writes back -/

/-- The body's stored value at `(p, q)` of point `t`'s block is the layer at `(5000 t + p, q)`. -/
theorem pay_eq_layer (c : Dev nD) (t : Fin cfg0.N) (p : Fin 5000) (q : Fin 128) :
    k0_pay1 (F := Ideal) (iblk m c 0 t) (iblk m c 1 t) (iblk m c 2 t) (iblk m c 3 t) (ix2 p q)
      = (result m c : FVec Ideal S50000x128 .f32) (ix2 (row t p) q) := by
  refine (pay_apply (iblk m c 0 t) (iblk m c 1 t) (iblk m c 2 t) (iblk m c 3 t) p q).trans ?_
  unfold result
  rw [Cert.MeanLinear.layer_apply]
  refine congrArg₂ (fun s b : EReal => max (s + b) 0) (Finset.sum_congr rfl fun k _ => ?_) (iblk3_apply m c t q)
  exact Cert.MeanLinear.term_eq (iblk0_apply m c t p k) (iblk1_apply m c t p) (iblk2_apply m c t k q)

/-- Point `t`'s block of an array of 50000 rows, through the result window, at `(p, q)`. -/
theorem read_blk4 (t : Fin cfg0.N) (R : FVec Ideal S50000x128 .f32) (p : Fin 5000) (q : Fin 128) :
    (((cfg0.win 4).blk t).view.read (Elt Ideal) R : FVec Ideal S5000x128 .f32) (ix2 p q) = R (ix2 (row t p) q) := by
  obtain ⟨e0, e1, -⟩ := idx_facts t
  rw [View.read_apply]
  refine congrArg R (funext fun a => Fin.ext ?_)
  match a with
  | ⟨0, _⟩ => show win0_4.index t (0 : Fin 2) * 5000 + 1 * p.val = t.val * 5000 + p.val; rw [e0]; omega
  | ⟨1, _⟩ => show win0_4.index t (1 : Fin 2) * 128 + 1 * q.val = q.val; rw [e1]; omega

/-- A block whose entry `(p, q)` is the array's entry `(5000 t + p, q)` is block `t` of the array: what the
    write-back of point `t` moves is the whole block (the blocks tile the array, nothing is clipped). -/
theorem write_blk4 (t : Fin cfg0.N) (P : FVec Ideal S5000x128 .f32) (R : FVec Ideal S50000x128 .f32)
    (h : ∀ (p : Fin 5000) (q : Fin 128), P (ix2 p q) = R (ix2 (row t p) q)) :
    (cfg0.win 4).cut (grid0.coords t) P = ((cfg0.win 4).blk t).view.read (Elt Ideal) R := by
  refine funext fun (j : S5000x128.Idx) => ?_
  obtain ⟨p, q, rfl⟩ : ∃ (p : Fin 5000) (q : Fin 128), j = ix2 p q := ⟨j 0, j 1, eq_ix2 j⟩
  have hcut : (cfg0.win 4).cut (grid0.coords t) P (ix2 p q) = P (ix2 p q) := rfl
  exact hcut.trans ((h p q).trans (read_blk4 t R p q).symm)

/-- What point `t` writes back is block `t` of the layer. -/
theorem flushed_eq (c : Dev nD) (t : Fin cfg0.N) :
    (dats m 0 c).flushed 4 t = ((cfg0.win 4).blk t).view.read (Elt Ideal) (result m c) := by
  have h1 : (dats m 0 c).flushed 4 t
      = (cfg0.win 4).cut (grid0.coords t) (k0_pay1 (F := Ideal) (iblk m c 0 t) (iblk m c 1 t) (iblk m c 2 t) (iblk m c 3 t)) := by
    rw [flushed4]
    unfold out0_4
    rw [View.canon_unit_zero hz]
    simp only [View.ld_unit_zero (S := S5000x128) hz, View.ld_unit_zero (S := S5000x1) hz,
      View.ld_unit_zero (S := S128x128) hz, View.ld_unit_zero (S := S1x128) hz]
  exact h1.trans (write_blk4 t _ (result m c) (pay_eq_layer m c t))

/-! ### The blocks cover the array -/

theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v21).slice (win0_4.rect t)).set ↔ _
  rw [View.set_slice_whole, Rect.mem_set_unit]
  exact Iff.rfl

/-- Row `r` lies in the block of the point `r / 5000`. -/
theorem cover (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, -⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 128 ≤ (i 1).val ∧ (i 1).val < win0_4.index t (1 : Fin 2) * 128 + 128
    rw [e1]; omega

/-- The result array after the run is the layer. -/
theorem final (c : Dev nD) : (dats m 0 c).arrAt 4 cfg0.N = result m c :=
  (dats m 0 c).arrAt_eq_of_cover 4 (result m c) (fun t _ => flushed_eq m c t) cover

/-- The run, read: the result array at the layer, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.KernelIdeal.Hand

end
-- ==== Proof.ReferenceValue.lean ====
/-
  The reference's result, read at an index, is the layer of the specification.

  The reference divides every summed row by its node's clamped count (the count vector viewed as a column and
  broadcast along the lanes), multiplies by the weights, adds the bias (viewed as a row and broadcast along the
  rows) and clamps below by zero.  At `(r, j)` that is
  `max (∑ k, summed (r, k) / max (deg r) 1 * W (k, j) + b j) 0`: the layer of the specification over the
  reference's own summed rows and counts.
-/
import proofs.«430197_j41394894798937_3_alg».proof.Proof.Gen.ReferenceIdeal.Read
import proofs.«430197_j41394894798937_3_alg».proof.Proof.MeanSpec
import Idealize.ShloMosaic.Lib.ValueIdx
import Idealize.ShloMosaic.Lib.IdealHost

noncomputable section

namespace Cert.ReferenceIdeal.Hand

open Cert.ReferenceIdeal Cert.ReferenceIdeal.Gen Cert.ReferenceIdeal.Read Idealize.ShloMosaic Idealize.ShloMosaic.ValueIdx

/-! ### Where each layout operation reads its operand -/

theorem lidx_eq (r : Fin 50000) (j k : Fin 128) : lidx_main_v19 (ix2 r j) k = ix2 r k :=
  funext fun a => Fin.ext (by match a with | ⟨0, _⟩ => rfl | ⟨1, _⟩ => rfl)

theorem ridx_eq (r : Fin 50000) (j k : Fin 128) : ridx_main_v19 (ix2 r j) k = ix2 k j :=
  funext fun a => Fin.ext (by match a with | ⟨0, _⟩ => rfl | ⟨1, _⟩ => rfl)

theorem idx17_eq (r : Fin 50000) (k : Fin 128) : idx_main_v17 (ix2 r k) = ix2 r 0 :=
  funext fun a => Fin.ext (by match a with | ⟨0, _⟩ => rfl | ⟨1, _⟩ => rfl)

theorem idx16_eq (r : Fin 50000) : idx_main_v16 (ix2 r (0 : Fin 1)) = ix1 r :=
  funext fun a => Fin.ext (by match a with | ⟨0, _⟩ => rfl)

theorem idx21_eq (r : Fin 50000) (j : Fin 128) : idx_main_v21 (ix2 r j) = ix2 0 j :=
  funext fun a => Fin.ext (by match a with | ⟨0, _⟩ => rfl | ⟨1, _⟩ => rfl)

theorem idx20_eq (j : Fin 128) : idx_main_v20 (ix2 (0 : Fin 1) j) = ix1 j :=
  funext fun a => Fin.ext (by match a with | ⟨0, _⟩ => rfl)

variable (x0 : (⟨S50000x128, .f32⟩ : BufTy).Contents (Elt Ideal)) (x1 : (⟨S128x128, .f32⟩ : BufTy).Contents (Elt Ideal))
  (x2 : (⟨S128, .f32⟩ : BufTy).Contents (Elt Ideal)) (x3 x4 : (⟨S800000, .i32⟩ : BufTy).Contents (Elt Ideal))

/-- The zero the result is clamped against. -/
theorem floor_apply (i : S50000x128.Idx) : val_main_call0_v0 (F := Ideal) i = 0 := by
  rw [val_main_call0_v0_apply, val_main_call0_cst_apply]
  exact Ideal.ofBits_zero_f32

/-- The broadcast bias at `(r, j)` is `b j`. -/
theorem bias_apply (r : Fin 50000) (j : Fin 128) : val_main_v21 (F := Ideal) x2 (ix2 r j) = (x2 : FVec Ideal S128 .f32) (ix1 j) := by
  rw [val_main_v21_apply, idx21_eq, val_main_v20_apply, idx20_eq]

/-- The clamped count broadcast over the lanes, at `(r, k)`, is `max (deg r) 1`. -/
theorem clamped_apply (r : Fin 50000) (k : Fin 128) :
    val_main_v17 (F := Ideal) x4 (ix2 r k) = max ((val_main_v13 (F := Ideal) x4 : FVec Ideal S50000 .f32) (ix1 r)) 1 := by
  rw [val_main_v17_apply, idx17_eq, val_main_v16_apply, idx16_eq, val_main_v15_apply, val_main_v14_apply, val_main_cst_3_apply]
  show max _ (Ideal.ofBits .f32 0x3F800000#32) = _
  rw [Ideal.ofBits_one_f32]

/-- The mean row at `(r, k)`: the summed entry over the clamped count. -/
theorem mean_apply (r : Fin 50000) (k : Fin 128) :
    val_main_v18 (F := Ideal) x0 x3 x4 (ix2 r k)
      = Ideal.div ((val_main_v9 (F := Ideal) x0 x3 x4 : FVec Ideal S50000x128 .f32) (ix2 r k)) (max ((val_main_v13 (F := Ideal) x4 : FVec Ideal S50000 .f32) (ix1 r)) 1) := by
  rw [val_main_v18_apply, clamped_apply]
  rfl

/-- The reference's result is the layer over its own summed rows and counts. -/
theorem result_eq :
    val_main_v23 (F := Ideal) x0 x1 x2 x3 x4
      = Cert.MeanLinear.layer (val_main_v9 (F := Ideal) x0 x3 x4) (val_main_v13 (F := Ideal) x4) x1 x2 := by
  funext i
  obtain ⟨r, j, rfl⟩ : ∃ (r : Fin 50000) (j : Fin 128), i = ix2 r j := ⟨i 0, i 1, eq_ix2 i⟩
  rw [Cert.MeanLinear.layer_apply, val_main_v23_apply, val_main_v22_apply, val_main_v19_apply, floor_apply, bias_apply]
  show max ((∑ k : Fin 128, _) + _) 0 = _
  refine congrArg (fun s : EReal => max (s + (x2 : FVec Ideal S128 .f32) (ix1 j)) 0) (Finset.sum_congr rfl fun k _ => ?_)
  rw [lidx_eq, ridx_eq, mean_apply]

end Cert.ReferenceIdeal.Hand

end
-- ==== Proof.lean ====
/-
  Mean aggregation over a graph's edges followed by a dense layer: the kernel against its reference.

  Both programs gather one row of `hidden` per edge at the edge's source, add the rows up per destination node
  and count each node's incoming edges, by the same operations of the same arguments; both clamp the count below
  by one.  The reference divides every summed row by its node's clamped count, multiplies by the weights, adds
  the bias and clamps below by zero.  The kernel takes the reciprocal of the clamped count first and, tiled over
  ten blocks of 5000 rows, multiplies every summed row by it, then does the same product, bias and clamp; its
  changes of float format are the identity on the extended reals.

  On the extended reals `x / y = x * y⁻¹` whenever `y ≠ 0`, and a count clamped below by one is not zero, so
  `x * (1 / max d 1) = x / max d 1` for every `x` and `d`, infinite ones included: the two results agree entry
  by entry and the inputs' finiteness is not used.  The kernel's side: the stored value of a block at an index
  (KernelPayload), the staged arrays as terms of the arguments (KernelHost), the ten blocks covering the result
  array (KernelValue).  The reference's side: its result read at an index (ReferenceValue).  The idealization
  rewrote nothing, so `preserves` is trivial; the frames are the runs with the results dropped.
-/
import proofs.«430197_j41394894798937_3_alg».proof.Defs
import proofs.«430197_j41394894798937_3_alg».proof.Proof.Gen.Kernel
import proofs.«430197_j41394894798937_3_alg».proof.Proof.Gen.Kernel.Skeleton
import proofs.«430197_j41394894798937_3_alg».proof.Proof.Gen.Kernel.Launch
import proofs.«430197_j41394894798937_3_alg».proof.Proof.Gen.Kernel.Points
import proofs.«430197_j41394894798937_3_alg».proof.Proof.Gen.Kernel.Frame
import proofs.«430197_j41394894798937_3_alg».proof.Proof.Gen.KernelIdeal
import proofs.«430197_j41394894798937_3_alg».proof.Proof.Gen.KernelIdeal.Skeleton
import proofs.«430197_j41394894798937_3_alg».proof.Proof.Gen.KernelIdeal.Launch
import proofs.«430197_j41394894798937_3_alg».proof.Proof.Gen.KernelIdeal.Points
import proofs.«430197_j41394894798937_3_alg».proof.Proof.Gen.KernelIdeal.Frame
import proofs.«430197_j41394894798937_3_alg».proof.Proof.Gen.ReferenceIdeal
import proofs.«430197_j41394894798937_3_alg».proof.Proof.Gen.Pre_finite_inputs
import proofs.«430197_j41394894798937_3_alg».proof.Proof.Gen.KernelIdeal.Value
import proofs.«430197_j41394894798937_3_alg».proof.Proof.Gen.ReferenceIdeal.Run
import proofs.«430197_j41394894798937_3_alg».proof.Proof.Gen.ReferenceIdeal.Read
import proofs.«430197_j41394894798937_3_alg».proof.Proof.KernelValue
import proofs.«430197_j41394894798937_3_alg».proof.Proof.ReferenceValue
import Idealize.ShloMosaic.Adequacy
import Idealize.ShloMosaic.Init

noncomputable section

namespace Cert.Proof

open Idealize.ShloMosaic Idealize.SL.Sem

/-- The two programs add up the gathered rows by the same operations: one term. -/
theorem summed_agree (x0 : (⟨Cert.KernelIdeal.S50000x128, .f32⟩ : BufTy).Contents (Elt Ideal))
    (x3 x4 : (⟨Cert.KernelIdeal.S800000, .i32⟩ : BufTy).Contents (Elt Ideal)) :
    Cert.KernelIdeal.Hand.summed (F := Ideal) x0 x3 x4 = Cert.ReferenceIdeal.Read.val_main_v9 (F := Ideal) x0 x3 x4 := rfl

/-- The two programs count the incoming edges by the same operations: one term. -/
theorem degree_agree (x4 : (⟨Cert.KernelIdeal.S800000, .i32⟩ : BufTy).Contents (Elt Ideal)) :
    Cert.KernelIdeal.Hand.degree (F := Ideal) x4 = Cert.ReferenceIdeal.Read.val_main_v13 (F := Ideal) x4 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the layer of the specification over the summed rows and the counts:
    the kernel's by its ten blocks, the reference's by its operations read at an index; the summed rows and the
    counts are the same terms of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Hand.result_eq,
    (hagree c).1, (hagree c).2.1, (hagree c).2.2.1, (hagree c).2.2.2.1, (hagree c).2.2.2.2]
  unfold Cert.KernelIdeal.Hand.result
  rw [← summed_agree, ← degree_agree]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
